-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S10x128 : Shape := ⟨2, ![10, 128]⟩
abbrev S10 : Shape := ⟨1, ![10]⟩
abbrev S8x10 : Shape := ⟨2, ![8, 10]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S8x10 : S_.BroadcastsInDim S8x10 (![] : Fin 0 → Fin S8x10.rank)
  reducesTo_S8x10_S_d0_1 : S8x10.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8 .f32) (main_arg5 : FVec F S1x8 .f32) (main_arg6 : FVec F S1 .f32) (main_v13 : IVec S_ 1) (main_v16 : IVec S8x10 1) : IVec S_ 1 :=
  let main_c_5 : IVec S_ 1 := constantI S_ 1 1#1
  let main_v17 : IVec S_ 1 := (fun x v => Host.reduce IntOp.andi x v reducesTo_S8x10_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1x8 .f32 := Host.absf main_arg5
  let main_cst_8 : FVec F S_ .f32 := constant S_ .f32 0x7F800000#32
  let main_v25 : FVec F S1x8 .f32 := broadcastInDim S1x8 ![] bcast_S_S1x8 main_cst_8
  let main_v26 : IVec S1x8 1 := cmpf .olt main_v24 main_v25
  let main_c_9 : IVec S_ 1 := constantI S_ 1 1#1
  let main_v27 : IVec S_ 1 := (fun x v => Host.reduce IntOp.andi x v reducesTo_S1x8_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1048576x128 .f32) (main_arg1 : FVec F S10x128 .f32) (main_arg2 : FVec F S10 .f32) (main_arg3 : FVec F S8x10 .f32) (main_arg4 : FVec F S8 .f32) (main_arg5 : FVec F S1x8 .f32) (main_arg6 : FVec F S1 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S8x10 .f32 := Host.absf main_arg3
  let main_cst_4 : FVec F S_ .f32 := constant S_ .f32 0x7F800000#32
  let main_v15 : FVec F S8x10 .f32 := broadcastInDim S8x10 ![] bcast_S_S8x10 main_cst_4
  let main_v16 : IVec S8x10 1 := cmpf .olt main_v14 main_v15
  fn_part1 (F := F) main_arg4 main_arg5 main_arg6 main_v13 main_v16
-- ==== Kernel.lean ====
abbrev S1048576x128 : Shape := ⟨2, ![1048576, 128]⟩
abbrev S10x128 : Shape := ⟨2, ![10, 128]⟩
abbrev S10 : Shape := ⟨1, ![10]⟩
abbrev S8x10 : Shape := ⟨2, ![8, 10]⟩
abbrev S8 : Shape := ⟨1, ![8]⟩
abbrev S1x8 : Shape := ⟨2, ![1, 8]⟩
abbrev S1 : Shape := ⟨1, ![1]⟩
abbrev S128x10 : Shape := ⟨2, ![128, 10]⟩
abbrev S10x8 : Shape := ⟨2, ![10, 8]⟩
abbrev S8x1 : Shape := ⟨2, ![8, 1]⟩
abbrev S1x10 : Shape := ⟨2, ![1, 10]⟩
abbrev S1x1 : Shape := ⟨2, ![1, 1]⟩
abbrev S1048576x1 : Shape := ⟨2, ![1048576, 1]⟩
abbrev S16384x128 : Shape := ⟨2, ![16384, 128]⟩
abbrev S16384x1 : Shape := ⟨2, ![16384, 1]⟩
abbrev S16384x10 : Shape := ⟨2, ![16384, 10]⟩
abbrev S16384x8 : Shape := ⟨2, ![16384, 8]⟩

abbrev nBuf : Space → Nat
  | .hbm => 14
  | .vmem => 10
  | .smem => 0
  | _ => 0

abbrev bufTy : (tb : Table) → Fin (tcTables nBuf tb) → BufTy
  | .hbm, ⟨0, _⟩ => ⟨S1048576x128, .f32⟩
  | .hbm, ⟨1, _⟩ => ⟨S10x128, .f32⟩
  | .hbm, ⟨2, _⟩ => ⟨S10, .f32⟩
  | .hbm, ⟨3, _⟩ => ⟨S8x10, .f32⟩
  | .hbm, ⟨4, _⟩ => ⟨S8, .f32⟩
  | .hbm, ⟨5, _⟩ => ⟨S1x8, .f32⟩
  | .hbm, ⟨6, _⟩ => ⟨S1, .f32⟩
  | .hbm, ⟨7, _⟩ => ⟨S128x10, .f32⟩
  | .hbm, ⟨8, _⟩ => ⟨S10x8, .f32⟩
  | .hbm, ⟨9, _⟩ => ⟨S8x1, .f32⟩
  | .hbm, ⟨10, _⟩ => ⟨S1x10, .f32⟩
  | .hbm, ⟨11, _⟩ => ⟨S1x8, .f32⟩
  | .hbm, ⟨12, _⟩ => ⟨S1x1, .f32⟩
  | .hbm, ⟨13, _⟩ => ⟨S1048576x1, .f32⟩
  | .local _ .vmem, ⟨0, _⟩ => ⟨S16384x128, .f32⟩
  | .local _ .vmem, ⟨1, _⟩ => ⟨S16384x128, .f32⟩
  | .local _ .vmem, ⟨2, _⟩ => ⟨S128x10, .f32⟩
  | .local _ .vmem, ⟨3, _⟩ => ⟨S1x10, .f32⟩
  | .local _ .vmem, ⟨4, _⟩ => ⟨S10x8, .f32⟩
  | .local _ .vmem, ⟨5, _⟩ => ⟨S1x8, .f32⟩
  | .local _ .vmem, ⟨6, _⟩ => ⟨S8x1, .f32⟩
  | .local _ .vmem, ⟨7, _⟩ => ⟨S1x1, .f32⟩
  | .local _ .vmem, ⟨8, _⟩ => ⟨S16384x1, .f32⟩
  | .local _ .vmem, ⟨9, _⟩ => ⟨S16384x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S10x128_S128x10_1_0 : S10x128.Transposes [1, 0] S128x10
  transposes_S8x10_S10x8_1_0 : S8x10.Transposes [1, 0] S10x8
  transposes_S1x8_S8x1_1_0 : S1x8.Transposes [1, 0] S8x1
  shapeCasts_S10_S1x10 : S10.ShapeCasts S1x10
  shapeCasts_S8_S1x8 : S8.ShapeCasts S1x8
  shapeCasts_S1_S1x1 : S1.ShapeCasts S1x1
  inb_S16384x128_S16384x128_0_0 : ∀ a, (![0, 0] : Fin 2 → Nat) a + S16384x128.size a ≤ S16384x128.size a
  h_S16384x128 : 0 < S16384x128.numel
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16384x10 : S1x10.Broadcasts S16384x10
  inb_S10x8_S10x8_0_0 : ∀ a, (![0, 0] : Fin 2 → Nat) a + S10x8.size a ≤ S10x8.size a
  h_S10x8 : 0 < S10x8.numel
  shapeCasts_S10x8_S10x8 : S10x8.ShapeCasts S10x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16384x8 : S1x8.Broadcasts S16384x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  dot_S16384x128_S128x10_S16384x10_1_0_0_1_n_n_wf : DotDims.WF S16384x128 S128x10 S16384x10 [1] [0] [0] [1] [] []
  dot_S16384x10_S10x8_S16384x8_1_0_0_1_n_n_wf : DotDims.WF S16384x10 S10x8 S16384x8 [1] [0] [0] [1] [] []
  dot_S16384x8_S8x1_S16384x1_1_0_0_1_n_n_wf : DotDims.WF S16384x8 S8x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x8.size a ≤ S10x8.size a
  hwx0_3 : ∀ i : grid0.Coords, EltTy.bits .f32 = 32 ∨ (Rect.block (s := S10x8) S10x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x1.size a ≤ S1048576x1.size a
  hwx0_7 : ∀ i : grid0.Coords, EltTy.bits .f32 = 32 ∨ (Rect.block (s := S1048576x1) S16384x1.size (cc0_transform_7 i) (hinb0_7 i)).WholeWords (EltTy.packing .f32)

variable [Facts₀]

def dot_S16384x128_S128x10_S16384x10_1_0_0_1_n_n : DotDims S16384x128 S128x10 S16384x10 where
  lhsContracting := [1]
  rhsContracting := [0]
  lhsNonContracting := [0]
  rhsNonContracting := [1]
  lhsBatch := []
  rhsBatch := []
  wf := dot_S16384x128_S128x10_S16384x10_1_0_0_1_n_n_wf
def dot_S16384x10_S10x8_S16384x8_1_0_0_1_n_n : DotDims S16384x10 S10x8 S16384x8 where
  lhsContracting := [1]
  rhsContracting := [0]
  lhsNonContracting := [0]
  rhsNonContracting := [1]
  lhsBatch := []
  rhsBatch := []
  wf := dot_S16384x10_S10x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S16384x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S10x128 : Shape := ⟨2, ![10, 128]⟩
abbrev S10 : Shape := ⟨1, ![10]⟩
abbrev S8x10 : Shape := ⟨2, ![8, 10]⟩
abbrev S8 : Shape := ⟨1, ![8]⟩
abbrev S1x8 : Shape := ⟨2, ![1, 8]⟩
abbrev S1 : Shape := ⟨1, ![1]⟩
abbrev S128x10 : Shape := ⟨2, ![128, 10]⟩
abbrev S1048576x10 : Shape := ⟨2, ![1048576, 10]⟩
abbrev S1x10 : Shape := ⟨2, ![1, 10]⟩
abbrev S_ : Shape := ⟨0, ![]⟩
abbrev S10x8 : Shape := ⟨2, ![10, 8]⟩
abbrev S1048576x8 : Shape := ⟨2, ![1048576, 8]⟩
abbrev S8x1 : Shape := ⟨2, ![8, 1]⟩
abbrev S1048576x1 : Shape := ⟨2, ![1048576, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S10x128, .f32⟩
  | .hbm, ⟨2, _⟩ => ⟨S10, .f32⟩
  | .hbm, ⟨3, _⟩ => ⟨S8x10, .f32⟩
  | .hbm, ⟨4, _⟩ => ⟨S8, .f32⟩
  | .hbm, ⟨5, _⟩ => ⟨S1x8, .f32⟩
  | .hbm, ⟨6, _⟩ => ⟨S1, .f32⟩
  | .hbm, ⟨7, _⟩ => ⟨S128x10, .f32⟩
  | .hbm, ⟨8, _⟩ => ⟨S1048576x10, .f32⟩
  | .hbm, ⟨9, _⟩ => ⟨S1x10, .f32⟩
  | .hbm, ⟨10, _⟩ => ⟨S1048576x10, .f32⟩
  | .hbm, ⟨11, _⟩ => ⟨S1048576x10, .f32⟩
  | .hbm, ⟨12, _⟩ => ⟨S_, .f32⟩
  | .hbm, ⟨13, _⟩ => ⟨S1048576x10, .f32⟩
  | .hbm, ⟨14, _⟩ => ⟨S1048576x10, .f32⟩
  | .hbm, ⟨15, _⟩ => ⟨S10x8, .f32⟩
  | .hbm, ⟨16, _⟩ => ⟨S1048576x8, .f32⟩
  | .hbm, ⟨17, _⟩ => ⟨S1x8, .f32⟩
  | .hbm, ⟨18, _⟩ => ⟨S1048576x8, .f32⟩
  | .hbm, ⟨19, _⟩ => ⟨S1048576x8, .f32⟩
  | .hbm, ⟨20, _⟩ => ⟨S_, .f32⟩
  | .hbm, ⟨21, _⟩ => ⟨S1048576x8, .f32⟩
  | .hbm, ⟨22, _⟩ => ⟨S1048576x8, .f32⟩
  | .hbm, ⟨23, _⟩ => ⟨S8x1, .f32⟩
  | .hbm, ⟨24, _⟩ => ⟨S1048576x1, .f32⟩
  | .hbm, ⟨25, _⟩ => ⟨S1x1, .f32⟩
  | .hbm, ⟨26, _⟩ => ⟨S1048576x1, .f32⟩
  | .hbm, ⟨27, _⟩ => ⟨S1048576x1, .f32⟩
  | .hbm, ⟨28, _⟩ => ⟨S1048576x1, .f32⟩
  | .hbm, ⟨29, _⟩ => ⟨S1048576x1, .f32⟩
  | .hbm, ⟨30, _⟩ => ⟨S_, .f32⟩
  | .hbm, ⟨31, _⟩ => ⟨S1048576x1, .f32⟩
  | .hbm, ⟨32, _⟩ => ⟨S1048576x1, .f32⟩
  | .hbm, ⟨33, _⟩ => ⟨S_, .f32⟩
  | .hbm, ⟨34, _⟩ => ⟨S1048576x1, .f32⟩
  | .hbm, ⟨35, _⟩ => ⟨S1048576x1, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S10x128_S128x10_1_0 : S10x128.Transposes [1, 0] S128x10
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  bcast_S_S1048576x10 : S_.BroadcastsInDim S1048576x10 (![] : Fin 0 → Fin S1048576x10.rank)
  transposes_S8x10_S10x8_1_0 : S8x10.Transposes [1, 0] S10x8
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  transposes_S1x8_S8x1_1_0 : S1x8.Transposes [1, 0] S8x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x128_S128x10_S1048576x10_1_0_0_1_n_n_wf : DotDims.WF S1048576x128 S128x10 S1048576x10 [1] [0] [0] [1] [] []
  dot_S1048576x10_S10x8_S1048576x8_1_0_0_1_n_n_wf : DotDims.WF S1048576x10 S10x8 S1048576x8 [1] [0] [0] [1] [] []
  dot_S1048576x8_S8x1_S1048576x1_1_0_0_1_n_n_wf : DotDims.WF S1048576x8 S8x1 S1048576x1 [1] [0] [0] [1] [] []

variable [Facts₀]

def dot_S1048576x128_S128x10_S1048576x10_1_0_0_1_n_n : DotDims S1048576x128 S128x10 S1048576x10 where
  lhsContracting := [1]
  rhsContracting := [0]
  lhsNonContracting := [0]
  rhsNonContracting := [1]
  lhsBatch := []
  rhsBatch := []
  wf := dot_S1048576x128_S128x10_S1048576x10_1_0_0_1_n_n_wf
def dot_S1048576x10_S10x8_S1048576x8_1_0_0_1_n_n : DotDims S1048576x10 S10x8 S1048576x8 where
  lhsContracting := [1]
  rhsContracting := [0]
  lhsNonContracting := [0]
  rhsNonContracting := [1]
  lhsBatch := []
  rhsBatch := []
  wf := dot_S1048576x10_S10x8_S1048576x8_1_0_0_1_n_n_wf
def dot_S1048576x8_S8x1_S1048576x1_1_0_0_1_n_n : DotDims S1048576x8 S8x1 S1048576x1 where
  lhsContracting := [1]
  rhsContracting := [0]
  lhsNonContracting := [0]
  rhsNonContracting := [1]
  lhsBatch := []
  rhsBatch := []
  wf := dot_S1048576x8_S8x1_S1048576x1_1_0_0_1_n_n_wf

class Facts : Prop extends Facts₀ where

variable [Facts]
-- ==== Proof.Mlp.lean ====
import Idealize.ShloMosaic.PureOps.Ideal.Laws
import Idealize.ShloMosaic.Lib.ValueIdx

noncomputable section

open scoped BigOperators

/-! # A three-layer perceptron on the extended reals

One input row `x` of 128 features goes through two affine layers with a rectified-linear activation, of widths 10 and 8,
and one affine layer of width 1 whose result goes through the logistic function. Weights are stored output-major
(`W j k` multiplies feature `k` into unit `j`), as the arguments are. Every sum is a finite sum on the extended reals and
`max`, `+`, `*` are theirs: the two programs compute these very terms, so no algebraic law is needed and nothing here
asks the entries to be finite. -/

namespace Cert.Mlp

open Idealize.ShloMosaic Idealize.ShloMosaic.ValueIdx

/-- Unit `j` of the first hidden layer: `max (∑ k, x k · W1 j k + b1 j) 0`. -/
def hidden1 (x : Fin 128 → EReal) (W1 : Fin 10 → Fin 128 → EReal) (b1 : Fin 10 → EReal) (j : Fin 10) : EReal :=
  max (∑ k : Fin 128, x k * W1 j k + b1 j) 0

/-- Unit `j` of the second hidden layer, over the first layer's ten activations. -/
def hidden2 (h : Fin 10 → EReal) (W2 : Fin 8 → Fin 10 → EReal) (b2 : Fin 8 → EReal) (j : Fin 8) : EReal :=
  max (∑ k : Fin 10, h k * W2 j k + b2 j) 0

/-- The output unit: the logistic function of the affine form of the second layer's eight activations. -/
def output (h : Fin 8 → EReal) (W3 : Fin 8 → EReal) (b3 : EReal) : EReal :=
  Ideal.logistic (∑ k : Fin 8, h k * W3 k + b3)

/-- The network on one row. -/
def row (x : Fin 128 → EReal) (W1 : Fin 10 → Fin 128 → EReal) (b1 : Fin 10 → EReal) (W2 : Fin 8 → Fin 10 → EReal)
    (b2 : Fin 8 → EReal) (W3 : Fin 8 → EReal) (b3 : EReal) : EReal :=
  output (hidden2 (hidden1 x W1 b1) W2 b2) W3 b3

/-- The network on the whole batch: entry `(r, 0)` of the result is the network on row `r` of `X`, with the weights
    and biases read out of their arrays by coordinates. -/
def net (X : FVec Ideal ⟨2, ![1048576, 128]⟩ .f32) (W1 : FVec Ideal ⟨2, ![10, 128]⟩ .f32) (b1 : FVec Ideal ⟨1, ![10]⟩ .f32)
    (W2 : FVec Ideal ⟨2, ![8, 10]⟩ .f32) (b2 : FVec Ideal ⟨1, ![8]⟩ .f32) (W3 : FVec Ideal ⟨2, ![1, 8]⟩ .f32)
    (b3 : FVec Ideal ⟨1, ![1]⟩ .f32) : FVec Ideal ⟨2, ![1048576, 1]⟩ .f32 := fun i =>
  row (fun k => X (ix2 (i 0) k)) (fun j k => W1 (ix2 j k)) (fun j => b1 (ix1 j)) (fun j k => W2 (ix2 j k))
    (fun j => b2 (ix1 j)) (fun k => W3 (ix2 0 k)) (b3 (ix1 0))

end Cert.Mlp

end
-- ==== Proof.RefNet.lean ====
import proofs.«131646_j44272522887405_1_alg».proof.Proof.Gen.ReferenceIdeal.Read
import proofs.«131646_j44272522887405_1_alg».proof.Proof.Mlp
import Idealize.ShloMosaic.Lib.IdealHost

noncomputable section

open scoped BigOperators

/-! # The reference computes the network

The reference's operations, read one entry at a time: each `dot_general` against a transposed weight matrix is the
sum over the contracted axis of activation times weight, the two broadcasts of a bias read its one coordinate, the
`maximum` against the broadcast zero is the rectifier, and `1 / (1 + exp (-z))` is the logistic function as the
extended reals define it. -/

namespace Cert.ReferenceIdeal.RefNet

open Cert.ReferenceIdeal Cert.ReferenceIdeal.Read Idealize.ShloMosaic Idealize.ShloMosaic.ValueIdx Cert.Mlp

variable (x0 : (⟨S1048576x128, .f32⟩ : BufTy).Contents (Elt Ideal)) (x1 : (⟨S10x128, .f32⟩ : BufTy).Contents (Elt Ideal))
  (x2 : (⟨S10, .f32⟩ : BufTy).Contents (Elt Ideal)) (x3 : (⟨S8x10, .f32⟩ : BufTy).Contents (Elt Ideal))
  (x4 : (⟨S8, .f32⟩ : BufTy).Contents (Elt Ideal)) (x5 : (⟨S1x8, .f32⟩ : BufTy).Contents (Elt Ideal))
  (x6 : (⟨S1, .f32⟩ : BufTy).Contents (Elt Ideal))

/-- Entry `(r, j)` of the first rectified layer is unit `j` of `hidden1` on row `r`. -/
theorem layer1 (r : Fin 1048576) (j : Fin 10) :
    val_main_v5 (F := Ideal) x0 x1 x2 (ix2 r j)
      = hidden1 (fun k => x0 (ix2 r k)) (fun j k => x1 (ix2 j k)) (fun j => x2 (ix1 j)) j := by
  rw [val_main_v5_apply, val_main_v4_apply, val_main_v1_apply, val_main_v3_apply, val_main_v2_apply,
    val_main_call0_v0_apply, val_main_call0_cst_apply]
  simp only [val_main_v0_apply]
  have el : ∀ k : Fin 128, lidx_main_v1 (ix2 r j) k = ix2 r k := fun k =>
    funext fun a => match a with | ⟨0, _⟩ => rfl | ⟨1, _⟩ => rfl
  have er : ∀ k : Fin 128, idx_main_v0 (ridx_main_v1 (ix2 r j) k) = ix2 j k := fun k =>
    funext fun a => match a with | ⟨0, _⟩ => rfl | ⟨1, _⟩ => rfl
  have eb : idx_main_v2 (idx_main_v3 (ix2 r j)) = ix1 j := funext fun a => match a with | ⟨0, _⟩ => rfl
  simp only [el, er, eb, Ideal.addf_def, Ideal.maximumf_def, Ideal.ofBits_def, Ideal.ofBits_zero_f32]
  rfl

/-- Entry `(r, j)` of the second rectified layer is unit `j` of `hidden2` over the first layer's row `r`. -/
theorem layer2 (r : Fin 1048576) (j : Fin 8) :
    val_main_v11 (F := Ideal) x0 x1 x2 x3 x4 (ix2 r j)
      = hidden2 (fun k => val_main_v5 (F := Ideal) x0 x1 x2 (ix2 r k)) (fun j k => x3 (ix2 j k)) (fun j => x4 (ix1 j)) j := by
  rw [val_main_v11_apply, val_main_v10_apply, val_main_v7_apply, val_main_v9_apply, val_main_v8_apply,
    val_main_call1_v0_apply, val_main_call1_cst_apply]
  simp only [val_main_v6_apply]
  have el : ∀ k : Fin 10, lidx_main_v7 (ix2 r j) k = ix2 r k := fun k =>
    funext fun a => match a with | ⟨0, _⟩ => rfl | ⟨1, _⟩ => rfl
  have er : ∀ k : Fin 10, idx_main_v6 (ridx_main_v7 (ix2 r j) k) = ix2 j k := fun k =>
    funext fun a => match a with | ⟨0, _⟩ => rfl | ⟨1, _⟩ => rfl
  have eb : idx_main_v8 (idx_main_v9 (ix2 r j)) = ix1 j := funext fun a => match a with | ⟨0, _⟩ => rfl
  simp only [el, er, eb, Ideal.addf_def, Ideal.maximumf_def, Ideal.ofBits_def, Ideal.ofBits_zero_f32]
  rfl

/-- Entry `(r, 0)` of the result is the output unit over the second layer's row `r`. -/
theorem layer3 (r : Fin 1048576) (q : Fin 1) :
    val_main_v22 (F := Ideal) x0 x1 x2 x3 x4 x5 x6 (ix2 r q)
      = output (fun k => val_main_v11 (F := Ideal) x0 x1 x2 x3 x4 (ix2 r k)) (fun k => x5 (ix2 0 k)) (x6 (ix1 0)) := by
  rw [val_main_v22_apply, val_main_v21_apply, val_main_cst_0_apply, val_main_v20_apply, val_main_v19_apply,
    val_main_cst_apply, val_main_v18_apply, val_main_v17_apply, val_main_v16_apply, val_main_v13_apply,
    val_main_v15_apply, val_main_v14_apply]
  simp only [val_main_v12_apply]
  have el : ∀ k : Fin 8, lidx_main_v13 (ix2 r q) k = ix2 r k := fun k =>
    funext fun a => match a with | ⟨0, _⟩ => rfl | ⟨1, _⟩ => rfl
  have er : ∀ k : Fin 8, idx_main_v12 (ridx_main_v13 (ix2 r q) k) = ix2 0 k := fun k =>
    funext fun a => match a with | ⟨0, _⟩ => Fin.ext (by have := q.isLt; show q.val = 0; omega) | ⟨1, _⟩ => rfl
  have eb : idx_main_v14 (idx_main_v15 (ix2 r q)) = ix1 0 := funext fun a => match a with | ⟨0, _⟩ => rfl
  simp only [el, er, eb, Ideal.addf_def, Ideal.hostDivf_def, Ideal.hostUnary_exp_def, Ideal.hostNegf_def, Ideal.negf_def,
    Ideal.ofBits_def, Ideal.ofBits_one_f32]
  rfl

/-- The reference's result array is the network of its arguments. -/
theorem result_eq : val_main_v22 (F := Ideal) x0 x1 x2 x3 x4 x5 x6 = net x0 x1 x2 x3 x4 x5 x6 := by
  funext i
  obtain ⟨r, q, rfl⟩ : ∃ (r : Fin 1048576) (q : Fin 1), i = ix2 r q := ⟨i 0, i 1, eq_ix2 i⟩
  rw [layer3]
  simp only [layer2, layer1]
  rfl

end Cert.ReferenceIdeal.RefNet

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KernelRow.lean ====
import proofs.«131646_j44272522887405_1_alg».proof.Proof.Gen.KernelIdeal.Skeleton
import proofs.«131646_j44272522887405_1_alg».proof.Proof.Mlp
import proofs.«131646_j44272522887405_1_alg».proof.Proof.LibPlainDot
import Idealize.ShloMosaic.Lib.Pipeline.Value

noncomputable section

open scoped BigOperators

/-! # One grid step of the kernel computes the network on its rows

The body works on a tile of 16384 rows. Each of its three products into a zero accumulator is, entry by entry, the
sum over the contracted axis of activation times weight (the weights arrive already transposed, so unit `j`'s weight
for feature `k` sits at `(k, j)`); a bias row `[1, n]` broadcast down the tile reads its entry `(0, j)`; the maximum
against the splat zero is the rectifier; and the logistic operation is the logistic function. So entry `(p, 0)` of
the stored tile is the network on row `p` of the loaded tile. -/

namespace Cert.KernelIdeal.KernelRow

open Cert.KernelIdeal Cert.KernelIdeal.Gen Idealize.ShloMosaic Idealize.ShloMosaic.ValueIdx Cert.Mlp

/-- A bias row `[1, n]` broadcast to `[m, n]` reads entry `(0, j)` at `(p, j)`, for `n ≠ 1`. -/
theorem bias_apply {mrows n : ℕ} (hn : n ≠ 1) (b : (⟨2, ![1, n]⟩ : Shape).Idx → EReal)
    (h : (⟨2, ![1, n]⟩ : Shape).Broadcasts ⟨2, ![mrows, n]⟩) (p : Fin mrows) (j : Fin n) :
    broadcastTo ⟨2, ![mrows, n]⟩ b h (ix2 p j) = b (ix2 0 j) :=
  broadcastTo_apply b h (ix2 p j) (ix2 0 j) (fun a => match a with
    | ⟨0, _⟩ => by show (0 : ℕ) = if (1 : ℕ) = 1 then 0 else _; rw [if_pos rfl]
    | ⟨1, _⟩ => by show j.val = if n = 1 then 0 else j.val; rw [if_neg hn])

/-- A single bias `[1, 1]` broadcast to `[m, 1]` reads its one entry. -/
theorem bias_one_apply {mrows : ℕ} (b : (⟨2, ![1, 1]⟩ : Shape).Idx → EReal)
    (h : (⟨2, ![1, 1]⟩ : Shape).Broadcasts ⟨2, ![mrows, 1]⟩) (p : Fin mrows) (q : Fin 1) :
    broadcastTo ⟨2, ![mrows, 1]⟩ b h (ix2 p q) = b (ix2 0 0) :=
  broadcastTo_apply b h (ix2 p q) (ix2 0 0) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl])

variable (v0 : FVec Ideal S16384x128 .f32) (v1 : FVec Ideal S128x10 .f32) (v4 : FVec Ideal S1x10 .f32)
  (v10 : FVec Ideal S10x8 .f32) (v13 : FVec Ideal S1x8 .f32) (v19 : FVec Ideal S8x1 .f32) (v22 : FVec Ideal S1x1 .f32)

/-- The first rectified layer of the tile, as the body computes it. -/
def act1 : FVec Ideal S16384x10 .f32 :=
  maximumf (addf (matmul dot_S16384x128_S128x10_S16384x10_1_0_0_1_n_n none v0 (shapeCast S128x10 v1 shapeCasts_S128x10_S128x10 : FVec Ideal S128x10 .f32)
      (constant S16384x10 .f32 0x00000000#32))
    (broadcastTo S16384x10 (shapeCast S1x10 v4 shapeCasts_S1x10_S1x10 : FVec Ideal S1x10 .f32) broadcasts_S1x10_S16384x10))
    (broadcast S16384x10 (Scalar.ofBits .f32 0x00000000#32))

/-- The second rectified layer of the tile, over the first. -/
def act2 : FVec Ideal S16384x8 .f32 :=
  maximumf (addf (matmul dot_S16384x10_S10x8_S16384x8_1_0_0_1_n_n none (act1 v0 v1 v4) (shapeCast S10x8 v10 shapeCasts_S10x8_S10x8 : FVec Ideal S10x8 .f32)
      (constant S16384x8 .f32 0x00000000#32))
    (broadcastTo S16384x8 (shapeCast S1x8 v13 shapeCasts_S1x8_S1x8 : FVec Ideal S1x8 .f32) broadcasts_S1x8_S16384x8))
    (broadcast S16384x8 (Scalar.ofBits .f32 0x00000000#32))

/-- The body's stored value is the logistic of the third affine layer over the second. -/
theorem pay_eq : k0_pay1 (F := Ideal) v0 v1 v4 v10 v13 v19 v22
    = (logistic (addf (matmul dot_S16384x8_S8x1_S16384x1_1_0_0_1_n_n none (act2 v0 v1 v4 v10 v13) (shapeCast S8x1 v19 shapeCasts_S8x1_S8x1 : FVec Ideal S8x1 .f32)
        (constant S16384x1 .f32 0x00000000#32))
      (broadcastTo S16384x1 (shapeCast S1x1 v22 shapeCasts_S1x1_S1x1 : FVec Ideal S1x1 .f32) broadcasts_S1x1_S16384x1)) : FVec Ideal S16384x1 .f32) := rfl

/-- Entry `(p, j)` of the first layer: unit `j` of `hidden1` on the tile's row `p`. -/
theorem act1_apply (p : Fin 16384) (j : Fin 10) :
    act1 v0 v1 v4 (ix2 p j) = hidden1 (fun k => v0 (ix2 p k)) (fun j k => v1 (ix2 k j)) (fun j => v4 (ix2 0 j)) j := by
  unfold act1
  rw [shapeCast_self, shapeCast_self]
  show max (FloatOps.matmul dot_S16384x128_S128x10_S16384x10_1_0_0_1_n_n none v0 v1 (constant S16384x10 .f32 0x00000000#32) (ix2 p j)
      + broadcastTo S16384x10 v4 broadcasts_S1x10_S16384x10 (ix2 p j)) (Ideal.ofBits .f32 0x00000000#32) = _
  rw [Cert.PlainDot.matmul_zero_apply dot_S16384x128_S128x10_S16384x10_1_0_0_1_n_n rfl, bias_apply (by decide), Ideal.ofBits_zero_f32]
  rfl

/-- Entry `(p, j)` of the second layer: unit `j` of `hidden2` over the first layer's row `p`. -/
theorem act2_apply (p : Fin 16384) (j : Fin 8) :
    act2 v0 v1 v4 v10 v13 (ix2 p j)
      = hidden2 (fun k => act1 v0 v1 v4 (ix2 p k)) (fun j k => v10 (ix2 k j)) (fun j => v13 (ix2 0 j)) j := by
  unfold act2
  rw [shapeCast_self, shapeCast_self]
  show max (FloatOps.matmul dot_S16384x10_S10x8_S16384x8_1_0_0_1_n_n none (act1 v0 v1 v4) v10 (constant S16384x8 .f32 0x00000000#32) (ix2 p j)
      + broadcastTo S16384x8 v13 broadcasts_S1x8_S16384x8 (ix2 p j)) (Ideal.ofBits .f32 0x00000000#32) = _
  rw [Cert.PlainDot.matmul_zero_apply dot_S16384x10_S10x8_S16384x8_1_0_0_1_n_n rfl, bias_apply (by decide), Ideal.ofBits_zero_f32]
  rfl

/-- Entry `(p, 0)` of the stored tile is the network on row `p` of the loaded tile. -/
theorem pay_apply (p : Fin 16384) (q : Fin 1) :
    k0_pay1 (F := Ideal) v0 v1 v4 v10 v13 v19 v22 (ix2 p q)
      = row (fun k => v0 (ix2 p k)) (fun j k => v1 (ix2 k j)) (fun j => v4 (ix2 0 j)) (fun j k => v10 (ix2 k j))
          (fun j => v13 (ix2 0 j)) (fun k => v19 (ix2 k 0)) (v22 (ix2 0 0)) := by
  rw [pay_eq, shapeCast_self, shapeCast_self]
  show Ideal.logistic (FloatOps.matmul dot_S16384x8_S8x1_S16384x1_1_0_0_1_n_n none (act2 v0 v1 v4 v10 v13) v19 (constant S16384x1 .f32 0x00000000#32) (ix2 p q)
      + broadcastTo S16384x1 v22 broadcasts_S1x1_S16384x1 (ix2 p q)) = _
  rw [Cert.PlainDot.matmul_zero_apply dot_S16384x8_S8x1_S16384x1_1_0_0_1_n_n rfl, bias_one_apply]
  have hq : q = 0 := Fin.ext (by have := q.isLt; show q.val = 0; omega)
  subst hq
  simp only [act2_apply, act1_apply]
  rfl

end Cert.KernelIdeal.KernelRow

end
-- ==== Proof.KernelNet.lean ====
import proofs.«131646_j44272522887405_1_alg».proof.Proof.Gen.KernelIdeal.Value
import proofs.«131646_j44272522887405_1_alg».proof.Proof.KernelRow
import Idealize.ShloMosaic.Lib.Pipeline.Value
import Idealize.ShloMosaic.Lib.StableHlo.Run
import Idealize.ShloMosaic.Lib.Tactic

noncomputable section

open scoped BigOperators

/-! # The kernel's result array is the network of its arguments

The grid has 64 steps; step `t` stages rows `16384·t … 16384·t + 16383` of `X`, the whole of each weight and bias array
(transposed, or given a leading unit axis, on the host before the launch), and writes back rows `16384·t …` of the
`[1048576, 1]` result. One step computes the network on its rows (`KernelRow.pay_apply`), so what it writes back is its
block of the network of the arguments; row `r` lies in the block of step `r / 16384`, so the blocks cover the result. -/

namespace Cert.KernelIdeal.KernelNet

open Cert.KernelIdeal Cert.KernelIdeal.Gen Cert.KernelIdeal.Value Idealize.ShloMosaic Idealize.ShloMosaic.TcCoe Idealize.SL.Sem
open Idealize.ShloMosaic.StableHlo Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid step: `X` and the result move with the step along the rows, every
    weight and bias window stays on its one block. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## The arrays the host prepares before the launch, at an entry -/

theorem w1t_apply (c : Dev nD) (k : Fin 128) (j : Fin 10) :
    (V m c main_v0 : S128x10.Idx → EReal) (ix2 k j) = (m ((c : Thread nD τ).loc main_arg1) : S10x128.Idx → EReal) (ix2 j k) := by
  have e : (V m c main_v0 : S128x10.Idx → EReal)
      = transpose S128x10 [1, 0] (m ((c : Thread nD τ).loc main_arg1)) transposes_S10x128_S128x10_1_0 := by
    dsimp only [V, hostOps0]; after_results
  rw [e]
  exact transpose_apply [1, 0] _ transposes_S10x128_S128x10_1_0 (ix2 k j) (ix2 j k) (fun b => match b with
    | ⟨0, _⟩ => rfl
    | ⟨1, _⟩ => rfl)

theorem w2t_apply (c : Dev nD) (k : Fin 10) (j : Fin 8) :
    (V m c main_v1 : S10x8.Idx → EReal) (ix2 k j) = (m ((c : Thread nD τ).loc main_arg3) : S8x10.Idx → EReal) (ix2 j k) := by
  have e : (V m c main_v1 : S10x8.Idx → EReal)
      = transpose S10x8 [1, 0] (m ((c : Thread nD τ).loc main_arg3)) transposes_S8x10_S10x8_1_0 := by
    dsimp only [V, hostOps0]; after_results
  rw [e]
  exact transpose_apply [1, 0] _ transposes_S8x10_S10x8_1_0 (ix2 k j) (ix2 j k) (fun b => match b with
    | ⟨0, _⟩ => rfl
    | ⟨1, _⟩ => rfl)

theorem w3t_apply (c : Dev nD) (k : Fin 8) (q : Fin 1) :
    (V m c main_v2 : S8x1.Idx → EReal) (ix2 k q) = (m ((c : Thread nD τ).loc main_arg5) : S1x8.Idx → EReal) (ix2 q k) := by
  have e : (V m c main_v2 : S8x1.Idx → EReal)
      = transpose S8x1 [1, 0] (m ((c : Thread nD τ).loc main_arg5)) transposes_S1x8_S8x1_1_0 := by
    dsimp only [V, hostOps0]; after_results
  rw [e]
  exact transpose_apply [1, 0] _ transposes_S1x8_S8x1_1_0 (ix2 k q) (ix2 q k) (fun b => match b with
    | ⟨0, _⟩ => rfl
    | ⟨1, _⟩ => rfl)

theorem b1r_apply (c : Dev nD) (z : Fin 1) (j : Fin 10) :
    (V m c main_v3 : S1x10.Idx → EReal) (ix2 z j) = (m ((c : Thread nD τ).loc main_arg2) : S10.Idx → EReal) (ix1 j) := by
  have e : (V m c main_v3 : S1x10.Idx → EReal)
      = shapeCast S1x10 (m ((c : Thread nD τ).loc main_arg2)) shapeCasts_S10_S1x10 := by
    dsimp only [V, hostOps0]; after_results; rfl
  rw [e]
  refine shapeCast_apply _ shapeCasts_S10_S1x10 (ix2 z j) (ix1 j) ?_
  rw [Shape.rowMajor_val_one, Shape.rowMajor_val_two]
  have := z.isLt
  show j.val = z.val * 10 + j.val
  omega

theorem b2r_apply (c : Dev nD) (z : Fin 1) (j : Fin 8) :
    (V m c main_v4 : S1x8.Idx → EReal) (ix2 z j) = (m ((c : Thread nD τ).loc main_arg4) : S8.Idx → EReal) (ix1 j) := by
  have e : (V m c main_v4 : S1x8.Idx → EReal)
      = shapeCast S1x8 (m ((c : Thread nD τ).loc main_arg4)) shapeCasts_S8_S1x8 := by
    dsimp only [V, hostOps0]; after_results; rfl
  rw [e]
  refine shapeCast_apply _ shapeCasts_S8_S1x8 (ix2 z j) (ix1 j) ?_
  rw [Shape.rowMajor_val_one, Shape.rowMajor_val_two]
  have := z.isLt
  show j.val = z.val * 8 + j.val
  omega

theorem b3r_apply (c : Dev nD) (z : Fin 1) (j : Fin 1) :
    (V m c main_v5 : S1x1.Idx → EReal) (ix2 z j) = (m ((c : Thread nD τ).loc main_arg6) : S1.Idx → EReal) (ix1 j) := by
  have e : (V m c main_v5 : S1x1.Idx → EReal)
      = shapeCast S1x1 (m ((c : Thread nD τ).loc main_arg6)) shapeCasts_S1_S1x1 := by
    dsimp only [V, hostOps0]; after_results; rfl
  rw [e]
  refine shapeCast_apply _ shapeCasts_S1_S1x1 (ix2 z j) (ix1 j) ?_
  rw [Shape.rowMajor_val_one, Shape.rowMajor_val_two]
  have := z.isLt
  show j.val = z.val * 1 + j.val
  omega

/-! ## Each window's block at a grid step, as entries of the arguments -/

/-- Row `p` of the staged tile of `X` at step `t` is row `16384·t + p` of `X`. -/
theorem xblk_apply (c : Dev nD) (t : Fin cfg0.N) (p : Fin 16384) (k : Fin 128) (i : S1048576x128.Idx)
    (h0 : (i 0).val = t.val * 16384 + p.val) (h1 : (i 1).val = k.val) :
    (iblk m c 0 t : FVec Ideal S16384x128 .f32) (ix2 p k) = (m ((c : Thread nD τ).loc main_arg0) : S1048576x128.Idx → EReal) i := by
  obtain ⟨⟨e0, e1⟩, -⟩ := idx_facts t
  unfold iblk
  rw [View.read_apply]
  show V m c main_arg0 _ = _
  rw [V_main_arg0]
  congr 1
  funext a
  apply Fin.ext
  match a with
  | ⟨0, _⟩ => show win0_0.index t (0 : Fin 2) * 16384 + 1 * p.val = (i 0).val; rw [e0, h0]; omega
  | ⟨1, _⟩ => show win0_0.index t (1 : Fin 2) * 128 + 1 * k.val = (i 1).val; rw [e1, h1]; omega

theorem w1blk_apply (c : Dev nD) (t : Fin cfg0.N) (k : Fin 128) (j : Fin 10) :
    (iblk m c 1 t : FVec Ideal S128x10 .f32) (ix2 k j) = (m ((c : Thread nD τ).loc main_arg1) : S10x128.Idx → EReal) (ix2 j k) := by
  obtain ⟨-, ⟨e0, e1⟩, -⟩ := idx_facts t
  rw [← w1t_apply m c k j]
  unfold iblk
  rw [View.read_apply]
  show V m c main_v0 _ = V m c main_v0 _
  congr 1
  funext a
  apply Fin.ext
  match a with
  | ⟨0, _⟩ => show win0_1.index t (0 : Fin 2) * 128 + 1 * k.val = k.val; rw [e0]; omega
  | ⟨1, _⟩ => show win0_1.index t (1 : Fin 2) * 10 + 1 * j.val = j.val; rw [e1]; omega

theorem b1blk_apply (c : Dev nD) (t : Fin cfg0.N) (z : Fin 1) (j : Fin 10) :
    (iblk m c 2 t : FVec Ideal S1x10 .f32) (ix2 z j) = (m ((c : Thread nD τ).loc main_arg2) : S10.Idx → EReal) (ix1 j) := by
  obtain ⟨-, -, ⟨e0, e1⟩, -⟩ := idx_facts t
  rw [← b1r_apply m c z j]
  unfold iblk
  rw [View.read_apply]
  show V m c main_v3 _ = V m c main_v3 _
  congr 1
  funext a
  apply Fin.ext
  match a with
  | ⟨0, _⟩ => show win0_2.index t (0 : Fin 2) * 1 + 1 * z.val = z.val; rw [e0]; omega
  | ⟨1, _⟩ => show win0_2.index t (1 : Fin 2) * 10 + 1 * j.val = j.val; rw [e1]; omega

theorem w2blk_apply (c : Dev nD) (t : Fin cfg0.N) (k : Fin 10) (j : Fin 8) :
    (iblk m c 3 t : FVec Ideal S10x8 .f32) (ix2 k j) = (m ((c : Thread nD τ).loc main_arg3) : S8x10.Idx → EReal) (ix2 j k) := by
  obtain ⟨-, -, -, ⟨e0, e1⟩, -⟩ := idx_facts t
  rw [← w2t_apply m c k j]
  unfold iblk
  rw [View.read_apply]
  show V m c main_v1 _ = V m c main_v1 _
  congr 1
  funext a
  apply Fin.ext
  match a with
  | ⟨0, _⟩ => show win0_3.index t (0 : Fin 2) * 10 + 1 * k.val = k.val; rw [e0]; omega
  | ⟨1, _⟩ => show win0_3.index t (1 : Fin 2) * 8 + 1 * j.val = j.val; rw [e1]; omega

theorem b2blk_apply (c : Dev nD) (t : Fin cfg0.N) (z : Fin 1) (j : Fin 8) :
    (iblk m c 4 t : FVec Ideal S1x8 .f32) (ix2 z j) = (m ((c : Thread nD τ).loc main_arg4) : S8.Idx → EReal) (ix1 j) := by
  obtain ⟨-, -, -, -, ⟨e0, e1⟩, -⟩ := idx_facts t
  rw [← b2r_apply m c z j]
  unfold iblk
  rw [View.read_apply]
  show V m c main_v4 _ = V m c main_v4 _
  congr 1
  funext a
  apply Fin.ext
  match a with
  | ⟨0, _⟩ => show win0_4.index t (0 : Fin 2) * 1 + 1 * z.val = z.val; rw [e0]; omega
  | ⟨1, _⟩ => show win0_4.index t (1 : Fin 2) * 8 + 1 * j.val = j.val; rw [e1]; omega

theorem w3blk_apply (c : Dev nD) (t : Fin cfg0.N) (k : Fin 8) (q : Fin 1) :
    (iblk m c 5 t : FVec Ideal S8x1 .f32) (ix2 k q) = (m ((c : Thread nD τ).loc main_arg5) : S1x8.Idx → EReal) (ix2 q k) := by
  obtain ⟨-, -, -, -, -, ⟨e0, e1⟩, -⟩ := idx_facts t
  rw [← w3t_apply m c k q]
  unfold iblk
  rw [View.read_apply]
  show V m c main_v2 _ = V m c main_v2 _
  congr 1
  funext a
  apply Fin.ext
  match a with
  | ⟨0, _⟩ => show win0_5.index t (0 : Fin 2) * 8 + 1 * k.val = k.val; rw [e0]; omega
  | ⟨1, _⟩ => show win0_5.index t (1 : Fin 2) * 1 + 1 * q.val = q.val; rw [e1]; omega

theorem b3blk_apply (c : Dev nD) (t : Fin cfg0.N) (z : Fin 1) (j : Fin 1) :
    (iblk m c 6 t : FVec Ideal S1x1 .f32) (ix2 z j) = (m ((c : Thread nD τ).loc main_arg6) : S1.Idx → EReal) (ix1 j) := by
  obtain ⟨-, -, -, -, -, -, ⟨e0, e1⟩, -⟩ := idx_facts t
  rw [← b3r_apply m c z j]
  unfold iblk
  rw [View.read_apply]
  show V m c main_v5 _ = V m c main_v5 _
  congr 1
  funext a
  apply Fin.ext
  match a with
  | ⟨0, _⟩ => show win0_6.index t (0 : Fin 2) * 1 + 1 * z.val = z.val; rw [e0]; omega
  | ⟨1, _⟩ => show win0_6.index t (1 : Fin 2) * 1 + 1 * j.val = j.val; rw [e1]; omega

/-! ## What a step writes back, the cover, the array -/

/-- The network of the arguments as launched: what the result array is to hold. -/
abbrev result (c : Dev nD) : Buf (Elt Ideal) ((c : Thread nD τ).loc main_v6) :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Step `t` writes back its block of `result`. -/
theorem flushed_eq (c : Dev nD) (t : Fin cfg0.N) :
    (dats m 0 c).flushed 7 t = ((cfg0.win 7).blk t).view.read (Elt Ideal) (result m c) := by
  obtain ⟨-, -, -, -, -, -, -, ⟨e0, e1⟩⟩ := idx_facts t
  rw [flushed7]
  unfold out0_7
  rw [View.canon_unit_zero hz]
  simp only [View.ld_unit_zero (S := S16384x128) hz, View.ld_unit_zero (S := S128x10) hz, View.ld_unit_zero (S := S1x10) hz,
    View.ld_unit_zero (S := S10x8) hz, View.ld_unit_zero (S := S1x8) hz, View.ld_unit_zero (S := S8x1) hz,
    View.ld_unit_zero (S := S1x1) hz]
  funext y
  obtain ⟨p, q, rfl⟩ : ∃ (p : Fin 16384) (q : Fin 1), y = ix2 p q := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  refine (KernelRow.pay_apply (iblk m c 0 t) (iblk m c 1 t) (iblk m c 2 t) (iblk m c 3 t) (iblk m c 4 t) (iblk m c 5 t) (iblk m c 6 t) p q).trans ?_
  show _ = row (fun k => (m ((c : Thread nD τ).loc main_arg0) : S1048576x128.Idx → EReal) (ix2 ((((cfg0.win 7).blk t).view.emb (ix2 p q)) 0) k))
      (fun j k => (m ((c : Thread nD τ).loc main_arg1) : S10x128.Idx → EReal) (ix2 j k))
      (fun j => (m ((c : Thread nD τ).loc main_arg2) : S10.Idx → EReal) (ix1 j))
      (fun j k => (m ((c : Thread nD τ).loc main_arg3) : S8x10.Idx → EReal) (ix2 j k))
      (fun j => (m ((c : Thread nD τ).loc main_arg4) : S8.Idx → EReal) (ix1 j))
      (fun k => (m ((c : Thread nD τ).loc main_arg5) : S1x8.Idx → EReal) (ix2 0 k))
      ((m ((c : Thread nD τ).loc main_arg6) : S1.Idx → EReal) (ix1 0))
  congr 1
  · funext k
    exact xblk_apply m c t p k _ (by show win0_7.index t (0 : Fin 2) * 16384 + 1 * p.val = _; rw [e0]; omega) rfl
  · funext j k; exact w1blk_apply m c t k j
  · funext j; exact b1blk_apply m c t 0 j
  · funext j k; exact w2blk_apply m c t k j
  · funext j; exact b2blk_apply m c t 0 j
  · funext k; exact w3blk_apply m c t k 0
  · exact b3blk_apply m c t 0 0

/-- An index of the result is in step `t`'s block iff each coordinate is in the block's range on its axis. -/
theorem mem_blk (t : Fin cfg0.N) (i : S1048576x1.Idx) :
    i ∈ ((cfg0.win 7).blk t).view.set ↔ ∀ a : Fin 2, win0_7.index t a * S16384x1.size a ≤ (i a).val
      ∧ (i a).val < win0_7.index t a * S16384x1.size a + S16384x1.size a := by
  show i ∈ ((View.whole main_v6).slice (win0_7.rect t)).set ↔ _
  rw [View.set_slice_whole, Rect.mem_set_unit]
  exact Iff.rfl

/-- Row `r` of the result is written back by step `r / 16384`. -/
theorem cover (i : S1048576x1.Idx) :
    ∃ t : Fin cfg0.N, (cfg0.win 7).flush t = true ∧ i ∈ ((cfg0.win 7).blk t).view.set := by
  have hi0 : (i 0).val < 1048576 := (i 0).isLt
  have hi1 : (i 1).val < 1 := (i 1).isLt
  have hN : cfg0.N = 64 := N_0
  obtain ⟨t, ht⟩ : ∃ t : Fin cfg0.N, t.val = (i 0).val / 16384 := ⟨⟨(i 0).val / 16384, by rw [hN]; omega⟩, rfl⟩
  obtain ⟨-, -, -, -, -, -, -, ⟨e0, e1⟩⟩ := idx_facts t
  refine ⟨t, flush0_7 t, ?_⟩
  rw [mem_blk]
  intro a
  match a with
  | ⟨0, _⟩ =>
    show win0_7.index t (0 : Fin 2) * 16384 ≤ (i 0).val ∧ (i 0).val < win0_7.index t (0 : Fin 2) * 16384 + 16384
    rw [e0, ht]; omega
  | ⟨1, _⟩ =>
    show win0_7.index t (1 : Fin 2) * 1 ≤ (i 1).val ∧ (i 1).val < win0_7.index t (1 : Fin 2) * 1 + 1
    rw [e1]; omega

/-- The result array after the run is the network of the arguments. -/
theorem final (c : Dev nD) : (dats m 0 c).arrAt 7 cfg0.N = result m c :=
  (dats m 0 c).arrAt_eq_of_cover 7 (result m c) (fun t _ => flushed_eq m c t) cover

/-- The kernel's run, read: the result array holds the network of the arguments, which are unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelIdeal.KernelNet

end
-- ==== Proof.lean ====
/- The certificate of a three-layer perceptron kernel against its jnp reference, over the extended reals.

   Both programs map a batch `X : [1048576, 128]` through `relu (X · W1ᵀ + b1)`, `relu (· W2ᵀ + b2)` and
   `sigmoid (· W3ᵀ + b3)` to a column `[1048576, 1]`. The kernel does it tile by tile, 16384 rows a grid step, with three
   matrix products into zero accumulators against weights the host transposed beforehand and with the logistic
   operation; the reference with three `dot_general`s over the whole batch and `1 / (1 + exp (-z))`. On the extended
   reals a product into a zero accumulator and a `dot_general` are the same finite sum, a change of tiling does not
   change any entry, and the logistic operation is by definition `1 / (1 + exp (-z))`; so entry by entry the two results
   are one term, `Cert.Mlp.net` of the arguments, and no law that needs finite entries is used.

   `Proof/Mlp.lean` states the network; `Proof/RefNet.lean` reads the reference's operations as it;
   `Proof/KernelRow.lean` reads one grid step's arithmetic as it on the step's rows (with `Proof/LibPlainDot.lean`, a
   plain two-dimensional product at an entry); `Proof/KernelNet.lean` reads each staged block as entries of the
   arguments, so that a step writes back its block of the network, and the blocks cover the result. The frames of the
   kernel programs and the runs these are read from are the generated modules'. -/
import proofs.«131646_j44272522887405_1_alg».proof.Defs
import proofs.«131646_j44272522887405_1_alg».proof.Proof.Gen.Kernel
import proofs.«131646_j44272522887405_1_alg».proof.Proof.Gen.Kernel.Skeleton
import proofs.«131646_j44272522887405_1_alg».proof.Proof.Gen.Kernel.Launch
import proofs.«131646_j44272522887405_1_alg».proof.Proof.Gen.Kernel.Points
import proofs.«131646_j44272522887405_1_alg».proof.Proof.Gen.Kernel.Frame
import proofs.«131646_j44272522887405_1_alg».proof.Proof.Gen.KernelIdeal
import proofs.«131646_j44272522887405_1_alg».proof.Proof.Gen.KernelIdeal.Skeleton
import proofs.«131646_j44272522887405_1_alg».proof.Proof.Gen.KernelIdeal.Launch
import proofs.«131646_j44272522887405_1_alg».proof.Proof.Gen.KernelIdeal.Points
import proofs.«131646_j44272522887405_1_alg».proof.Proof.Gen.KernelIdeal.Frame
import proofs.«131646_j44272522887405_1_alg».proof.Proof.Gen.ReferenceIdeal
import proofs.«131646_j44272522887405_1_alg».proof.Proof.Gen.Pre_finite_inputs
import proofs.«131646_j44272522887405_1_alg».proof.Proof.Gen.KernelIdeal.Value
import proofs.«131646_j44272522887405_1_alg».proof.Proof.Gen.ReferenceIdeal.Run
import proofs.«131646_j44272522887405_1_alg».proof.Proof.Gen.ReferenceIdeal.Read
import proofs.«131646_j44272522887405_1_alg».proof.Proof.RefNet
import proofs.«131646_j44272522887405_1_alg».proof.Proof.KernelNet
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network of the arguments: the kernel's by `KernelNet.run`, the
    reference's because its composed term is the network (`RefNet.result_eq`) of arguments that agree with the kernel's. -/
theorem algebraic : Cert.algebraic_KernelIdeal_ReferenceIdeal := by
  intro m ρ m' ρ' _ hagree
  refine ⟨fun c => Cert.KernelIdeal.KernelNet.result m c, Cert.KernelIdeal.KernelNet.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefNet.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
